-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S2x1200000 32) (main_arg2 : FVec F S1200000 .f32) (main_arg3 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S100000 : Shape := ⟨1, ![100000]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S10000x64 : Shape := ⟨2, ![10000, 64]⟩

abbrev nBuf : Space → Nat
  | .hbm => 63
  | .vmem => 7
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S100000, .i32⟩
  | .hbm, ⟨5, _⟩ => ⟨S1x1200000, .i32⟩
  | .hbm, ⟨6, _⟩ => ⟨S1200000, .i32⟩
  | .hbm, ⟨7, _⟩ => ⟨S1300000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S_, .f32⟩
  | .hbm, ⟨12, _⟩ => ⟨S100000, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S_, .i32⟩
  | .hbm, ⟨47, _⟩ => ⟨S1300000, .i32⟩
  | .hbm, ⟨48, _⟩ => ⟨S1300000, .i1⟩
  | .hbm, ⟨49, _⟩ => ⟨S_, .i32⟩
  | .hbm, ⟨50, _⟩ => ⟨S1300000, .i32⟩
  | .hbm, ⟨51, _⟩ => ⟨S1300000, .i32⟩
  | .hbm, ⟨52, _⟩ => ⟨S1300000, .i32⟩
  | .hbm, ⟨53, _⟩ => ⟨S1300000x1, .i32⟩
  | .hbm, ⟨54, _⟩ => ⟨S1300000x64, .f32⟩
  | .hbm, ⟨55, _⟩ => ⟨S1300000x1, .f32⟩
  | .hbm, ⟨56, _⟩ => ⟨S1300000x64, .f32⟩
  | .hbm, ⟨57, _⟩ => ⟨S1300000x64, .f32⟩
  | .hbm, ⟨58, _⟩ => ⟨S_, .f32⟩
  | .hbm, ⟨59, _⟩ => ⟨S100000x64, .f32⟩
  | .hbm, ⟨60, _⟩ => ⟨S1300000x1, .i32⟩
  | .hbm, ⟨61, _⟩ => ⟨S100000x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S10000x64, .f32⟩
  | .local _ .vmem, ⟨6, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v44) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S100000 : Shape := ⟨1, ![100000]⟩
abbrev S1x1200000 : Shape := ⟨2, ![1, 1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S100000, .i32⟩
  | .hbm, ⟨5, _⟩ => ⟨S1x1200000, .i32⟩
  | .hbm, ⟨6, _⟩ => ⟨S1200000, .i32⟩
  | .hbm, ⟨7, _⟩ => ⟨S1300000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S_, .f32⟩
  | .hbm, ⟨12, _⟩ => ⟨S100000, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S_, .i32⟩
  | .hbm, ⟨47, _⟩ => ⟨S1300000, .i32⟩
  | .hbm, ⟨48, _⟩ => ⟨S1300000, .i1⟩
  | .hbm, ⟨49, _⟩ => ⟨S_, .i32⟩
  | .hbm, ⟨50, _⟩ => ⟨S1300000, .i32⟩
  | .hbm, ⟨51, _⟩ => ⟨S1300000, .i32⟩
  | .hbm, ⟨52, _⟩ => ⟨S1300000, .i32⟩
  | .hbm, ⟨53, _⟩ => ⟨S1300000x1, .i32⟩
  | .hbm, ⟨54, _⟩ => ⟨S1300000x64, .f32⟩
  | .hbm, ⟨55, _⟩ => ⟨S1300000x1, .f32⟩
  | .hbm, ⟨56, _⟩ => ⟨S1300000x64, .f32⟩
  | .hbm, ⟨57, _⟩ => ⟨S1300000x64, .f32⟩
  | .hbm, ⟨58, _⟩ => ⟨S_, .f32⟩
  | .hbm, ⟨59, _⟩ => ⟨S100000x64, .f32⟩
  | .hbm, ⟨60, _⟩ => ⟨S1300000x1, .i32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.DenseSpec.lean ====
/-
  The dense stage of the layer, as one function of whole arrays.

  With `A` the aggregated neighbour features, `X` the node features (both 100000 × 64) and `W` the 64 × 64 weight
  matrix, entry (r, c) of the layer's output is

      max (∑ k : Fin 64, (c₀ · A (r, k) + c₁ · X (r, k)) · W (k, c)) 0

  over the extended reals: the initial-residual mix of the two feature arrays, a matrix product with the weights, and a
  rectifier. The two mixing weights c₀, c₁ and the rectifier's zero are kept as their 32-bit float words; both programs
  print the same words, so their values are never needed.

  Row r of the output depends only on row r of `A` and of `X`. That is what lets the rows be computed ten thousand at
  a time: a block of output rows is the same formula on the matching blocks of input rows.
-/
import Idealize.ShloMosaic.PureOps.Ideal
import Idealize.ShloMosaic.Lib.ValueIdx

noncomputable section

open scoped BigOperators

namespace Cert.DenseSpec

open Idealize.ShloMosaic Idealize.ShloMosaic.ValueIdx

/-- One output entry from one row of each feature array and one column of the weights: the mixed row times the column,
    rectified. `a` and `x` are the two rows, `w` the column, each indexed by the contracted axis. -/
def entry (a x w : Fin 64 → EReal) : EReal :=
  max (∑ k : Fin 64, (Ideal.ofBits .f32 0x3F666666#32 * a k + Ideal.ofBits .f32 0x3DCCCCCD#32 * x k) * w k)
    (Ideal.ofBits .f32 0x00000000#32)

/-- The whole output array: entry (r, c) is `entry` of row r of `A`, row r of `X` and column c of `W`. -/
def dense (A X : (⟨2, ![100000, 64]⟩ : Shape).Idx → EReal) (W : (⟨2, ![64, 64]⟩ : Shape).Idx → EReal) :
    (⟨2, ![100000, 64]⟩ : Shape).Idx → EReal :=
  fun i => entry (fun k => A (ix2 (i 0) k)) (fun k => X (ix2 (i 0) k)) (fun k => W (ix2 k (i 1)))

/-- `dense` at explicit coordinates. -/
theorem dense_apply (A X : (⟨2, ![100000, 64]⟩ : Shape).Idx → EReal) (W : (⟨2, ![64, 64]⟩ : Shape).Idx → EReal)
    (r : Fin 100000) (c : Fin 64) :
    dense A X W (ix2 r c) = entry (fun k => A (ix2 r k)) (fun k => X (ix2 r k)) (fun k => W (ix2 k c)) := rfl

end Cert.DenseSpec

end
-- ==== Proof.BlockPayload.lean ====
/-
  One grid point's arithmetic, read at one entry.

  At a grid point the body holds a 10000 × 64 block `a` of aggregated features, the matching block `x` of node
  features and the whole weight matrix `w`. It mixes the two blocks entrywise (c₀ · a + c₁ · x), narrows the mix and the
  weights to bf16, multiplies them into a zero accumulator, and takes the maximum with zero. Over the extended reals
  narrowing is the identity and a product into a zero accumulator is the plain sum over the contracted axis, so entry
  (p, q) of what the body stores is `DenseSpec.entry` of row p of `a`, row p of `x` and column q of `w`.
-/
import proofs.«129318_j85031762526673_1_alg».proof.Proof.Gen.KernelIdeal.Skeleton
import proofs.«129318_j85031762526673_1_alg».proof.Proof.DenseSpec
import Idealize.ShloMosaic.Lib.ValueIdx
import Idealize.ShloMosaic.Lib.Pipeline.Value
import Idealize.ShloMosaic.PureOps.Ideal.Laws

noncomputable section

open scoped BigOperators

namespace Cert.KernelIdeal.BlockPayload

open Cert.KernelIdeal Cert.KernelIdeal.Gen Idealize.ShloMosaic Idealize.ShloMosaic.ValueIdx

/-! ## The block product's operand indices, axis by axis

The product contracts the left operand's second axis with the right operand's first. At output index `i` and
contraction index `q` the left operand is read at (i 0, q) and the right at (q, i 1). -/

theorem lhs_blockdot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blockdot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blockdot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blockdot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at entry (p, q): row p of the left operand times column q of the right,
    summed over the 64 contracted coordinates. -/
theorem blockdot_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul dot_S10000x64_S64x64_S10000x64_1_0_0_1_n_n none l r (constant S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blockdot_0 _ _
    | ⟨1, _⟩ => exact (lhs_blockdot_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blockdot_0 _ _).trans hk
    | ⟨1, _⟩ => exact rhs_blockdot_1 _ _)
  rw [el, er]

/-- What the body stores, at entry (p, q): the dense stage's entry on row p of the two feature blocks and column q of the
    weights. -/
theorem pay_apply (a x : Vec Ideal S10000x64 .f32) (w : Vec Ideal S64x64 .f32) (p : Fin 10000) (q : Fin 64) :
    k0_pay1 (F := Ideal) a x w (ix2 p q)
      = Cert.DenseSpec.entry (fun k => a (ix2 p k)) (fun k => x (ix2 p k)) (fun k => w (ix2 k q)) := by
  unfold k0_pay1 Cert.DenseSpec.entry
  dsimp only
  rw [maximumf_apply, broadcast_apply, blockdot_apply]
  refine congrArg₂ max (Finset.sum_congr rfl fun k _ => ?_) rfl
  rw [truncf_apply, truncf_apply, addf_apply, mulf_apply, mulf_apply, broadcast_apply, broadcast_apply, shapeCast_self]
  rfl

end Cert.KernelIdeal.BlockPayload

end
-- ==== Proof.KernelDense.lean ====
/-
  From blocks to the array: what the kernel leaves in its output.

  The grid has ten points. Point t works on rows 10000·t … 10000·t + 9999: it is handed that block of the aggregated
  features, the same block of the node features and the whole weight matrix, and writes back that block of the output.
  By `BlockPayload.pay_apply` entry (p, q) of what it writes is the dense stage's entry on row p of the two blocks and
  column q of the weights; row p of a block at point t is row 10000·t + p of its array; so point t writes exactly block
  t of `DenseSpec.dense` of the three arrays. The ten blocks tile the 100000 rows (row r lies in block r / 10000), so
  after the run the output array is `DenseSpec.dense` of the arrays the region was entered with.
-/
import proofs.«129318_j85031762526673_1_alg».proof.Proof.Gen.KernelIdeal.Value
import proofs.«129318_j85031762526673_1_alg».proof.Proof.BlockPayload

noncomputable section

namespace Cert.KernelIdeal.KernelDense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, at their literal types -/

/-- The aggregated features as the region finds them (written by the host operations before it). -/
abbrev aggArr (c : Dev nD) : Vec Ideal S100000x64 .f32 := V m c main_v44
/-- The node features as the region finds them. -/
abbrev featArr (c : Dev nD) : Vec Ideal S100000x64 .f32 := V m c main_arg0
/-- The weights as the region finds them. -/
abbrev weightArr (c : Dev nD) : Vec Ideal S64x64 .f32 := V m c main_arg3
/-- Point `t`'s block of the aggregated features, -/
abbrev aggBlk (c : Dev nD) (t : Fin cfg0.N) : Vec Ideal S10000x64 .f32 := iblk m c 0 t
/-- of the node features, -/
abbrev featBlk (c : Dev nD) (t : Fin cfg0.N) : Vec Ideal S10000x64 .f32 := iblk m c 1 t
/-- and of the weights (always the whole matrix). -/
abbrev weightBlk (c : Dev nD) (t : Fin cfg0.N) : Vec Ideal S64x64 .f32 := iblk m c 2 t

/-- The output array the kernel is to produce: the dense stage of the three arrays. -/
abbrev target (c : Dev nD) : Vec Ideal S100000x64 .f32 :=
  Cert.DenseSpec.dense (aggArr m c) (featArr m c) (weightArr m c)

/-! ## Where each block sits -/

theorem origin : (![0, 0] : Fin 2 → Nat) = fun _ => 0 := funext fun a => by fin_cases a <;> rfl

/-- The index maps over the ten points: the two feature windows and the output window are at row-block `t`, column-block
    0; the weight window stays at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point is one of ten. -/
theorem point_lt (t : Fin cfg0.N) : t.val < 10 := lt_of_lt_of_eq t.isLt N_0

/-- Row `p` of point `t`'s block is row `10000·t + p` of the array. -/
def row (t : Fin cfg0.N) (p : Fin 10000) : Fin 100000 :=
  ⟨t.val * 10000 + p.val, by have := point_lt t; have := p.isLt; omega⟩

/-- Read through the first feature window at point `t`, row `p` of ANY 100000 × 64 array is its row `10000·t + p`. -/
theorem read_win0 (t : Fin cfg0.N) (f : Vec Ideal S100000x64 .f32) (p : Fin 10000) (k : Fin 64) :
    ((cfg0.win 0).blk t).view.read (Elt Ideal) f (ix2 p k) = f (ix2 (row t p) k) := by
  show f (((cfg0.win 0).blk t).view.emb (ix2 p k)) = f (ix2 (row t p) k)
  refine congrArg f ?_
  obtain ⟨e0, e1, -⟩ := index_maps t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- The same through the second feature window. -/
theorem read_win1 (t : Fin cfg0.N) (f : Vec Ideal S100000x64 .f32) (p : Fin 10000) (k : Fin 64) :
    ((cfg0.win 1).blk t).view.read (Elt Ideal) f (ix2 p k) = f (ix2 (row t p) k) := by
  show f (((cfg0.win 1).blk t).view.emb (ix2 p k)) = f (ix2 (row t p) k)
  refine congrArg f ?_
  obtain ⟨-, -, e0, e1, -⟩ := index_maps t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

/-- Read through the weight window, ANY 64 × 64 array is itself, at every point. -/
theorem read_win2 (t : Fin cfg0.N) (f : Vec Ideal S64x64 .f32) (k q : Fin 64) :
    ((cfg0.win 2).blk t).view.read (Elt Ideal) f (ix2 k q) = f (ix2 k q) := by
  show f (((cfg0.win 2).blk t).view.emb (ix2 k q)) = f (ix2 k q)
  refine congrArg f ?_
  obtain ⟨-, -, -, -, e0, e1, -⟩ := index_maps t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- Point `t`'s block of the aggregated features is rows `10000·t …` of the array. -/
theorem aggBlk_apply (c : Dev nD) (t : Fin cfg0.N) (p : Fin 10000) (k : Fin 64) :
    aggBlk m c t (ix2 p k) = aggArr m c (ix2 (row t p) k) :=
  read_win0 t (aggArr m c) p k

/-- The same for the node features. -/
theorem featBlk_apply (c : Dev nD) (t : Fin cfg0.N) (p : Fin 10000) (k : Fin 64) :
    featBlk m c t (ix2 p k) = featArr m c (ix2 (row t p) k) :=
  read_win1 t (featArr m c) p k

/-- The weight block is the whole weight matrix, at every point. -/
theorem weightBlk_apply (c : Dev nD) (t : Fin cfg0.N) (k q : Fin 64) :
    weightBlk m c t (ix2 k q) = weightArr m c (ix2 k q) :=
  read_win2 t (weightArr m c) k q

/-- Entry (p, q) of the output's block at point `t` is entry (10000·t + p, q) of the output array. -/
theorem outBlk_emb (t : Fin cfg0.N) (p : Fin 10000) (q : Fin 64) :
    ((cfg0.win 3).blk t).view.emb (ix2 p q) = ix2 (row t p) q := by
  obtain ⟨-, -, -, -, -, -, e0, e1⟩ := index_maps t
  funext a; apply Fin.ext
  match a with
  | ⟨0, _⟩ => show win0_3.index t (0 : Fin 2) * 10000 + 1 * p.val = t.val * 10000 + p.val; omega
  | ⟨1, _⟩ => show win0_3.index t (1 : Fin 2) * 64 + 1 * q.val = q.val; omega

/-! ## What a point writes back -/

/-- Entry (p, q) of what the body stores at point `t` is entry (10000·t + p, q) of the target. -/
theorem stored_apply (c : Dev nD) (t : Fin cfg0.N) (p : Fin 10000) (q : Fin 64) :
    k0_pay1 (F := Ideal) (aggBlk m c t) (featBlk m c t) (weightBlk m c t) (ix2 p q) = target m c (ix2 (row t p) q) := by
  rw [Cert.KernelIdeal.BlockPayload.pay_apply]
  show _ = Cert.DenseSpec.dense (aggArr m c) (featArr m c) (weightArr m c) (ix2 (row t p) q)
  rw [Cert.DenseSpec.dense_apply]
  have ha : (fun k => aggBlk m c t (ix2 p k)) = fun k => aggArr m c (ix2 (row t p) k) :=
    funext fun k => aggBlk_apply m c t p k
  have hx : (fun k => featBlk m c t (ix2 p k)) = fun k => featArr m c (ix2 (row t p) k) :=
    funext fun k => featBlk_apply m c t p k
  have hw : (fun k => weightBlk m c t (ix2 k q)) = fun k => weightArr m c (ix2 k q) :=
    funext fun k => weightBlk_apply m c t k q
  exact congr (congr (congrArg Cert.DenseSpec.entry ha) hx) hw

/-- A 10000 × 64 block `X` whose entry (p, q) is entry (10000·t + p, q) of an array `G` is, written back at point `t`,
    block `t` of `G` (for any `X` and `G`: the output window's block at `t` is uncut and sits at row-block `t`). -/
theorem writeback_of_entries (t : Fin cfg0.N) (X : Vec Ideal S10000x64 .f32) (G : Vec Ideal S100000x64 .f32)
    (h : ∀ (p : Fin 10000) (q : Fin 64), X (ix2 p q) = G (ix2 (row t p) q)) :
    (cfg0.win 3).cut (grid0.coords t) X = ((cfg0.win 3).blk t).view.read (Elt Ideal) G := by
  funext j
  obtain ⟨p, q, rfl⟩ : ∃ (p : Fin 10000) (q : Fin 64), j = ix2 p q := ⟨j 0, j 1, eq_ix2 j⟩
  show X (ix2 p q) = G (((cfg0.win 3).blk t).view.emb (ix2 p q))
  rw [outBlk_emb]
  exact h p q

/-- WHAT POINT `t` WRITES BACK is block `t` of the target. -/
theorem flushed_eq (c : Dev nD) (t : Fin cfg0.N) :
    (dats m 0 c).flushed 3 t = ((cfg0.win 3).blk t).view.read (Elt Ideal) (target m c) := by
  rw [Cert.KernelIdeal.Value.flushed3]
  unfold out0_3
  rw [View.canon_unit_zero origin]
  simp only [View.ld_unit_zero (S := S10000x64) origin, View.ld_unit_zero (S := S64x64) origin]
  exact writeback_of_entries t _ _ (fun p q => stored_apply m c t p q)

/-! ## The ten blocks tile the rows -/

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v45).slice (win0_3.rect t)).set ↔ _
  rw [View.set_slice_whole, Rect.mem_set_unit]
  exact Iff.rfl

/-- Row r is in block r / 10000: every index of the output array is written back by some point. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 10) N_0.symm⟩, rfl⟩
  obtain ⟨-, -, -, -, -, -, e0, e1⟩ := index_maps t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-! ## The output array after the run -/

/-- THE ARRAY after the run is the dense stage of the arrays the region was entered with. -/
theorem final (c : Dev nD) : (dats m 0 c).arrAt 3 cfg0.N = target m c :=
  (dats m 0 c).arrAt_eq_of_cover 3 (target m c) (fun t _ => flushed_eq m c t) cover

/-- The kernel's run with its output array named: the dense stage of the aggregated features, the node features and the
    weights as the region finds them; the arguments unchanged. -/
theorem run : θ_run defs (onTc (τ := τ) (main (F := Ideal))) ⟨m, fun _ => 0, ρ⟩ fun r => ∀ c : Dev nD,
      r.2.mem ((c : Thread nD τ).loc main_v45) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.KernelDense

end
-- ==== Proof.Aggregate.lean ====
/-
  The aggregated features the kernel is handed are the reference's aggregated features.

  Before its one dense kernel the program computes, on the host, the symmetric-normalised sparse aggregation of the node
  features: degrees by a scatter-add of the edge weights (self-loops appended), their inverse square roots where
  positive, a per-edge coefficient from two gathers, the gathered feature rows scaled by it, and a second scatter-add
  into the 100000 × 64 array of aggregated features. The reference computes the same array by the same operations, in the
  same order, over the same literal constants, before its own dense stage. So the array the kernel's first window is
  staged from is the reference's aggregation, as a function of the node features, the edge index and the edge weights,
  applied to the kernel's own arguments: the two are one composed term, and nothing about gathers or scatters is ever
  opened.
-/
import proofs.«129318_j85031762526673_1_alg».proof.Proof.Gen.KernelIdeal.Frame
import proofs.«129318_j85031762526673_1_alg».proof.Proof.Gen.ReferenceIdeal.Read

noncomputable section

namespace Cert.KernelIdeal.Aggregate

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 4000000 in
/-- When the dense kernel is entered, the array of aggregated features holds the reference's aggregation of the launch
    contents of the node features, the edge index and the edge weights (at any float instance: the two host prefixes are
    the same composed term). -/
theorem staged_agg (c : Dev nD) :
    (V m c main_v44 : (⟨S100000x64, .f32⟩ : BufTy).Contents (Elt F))
      = Cert.ReferenceIdeal.Read.val_main_v44 (F := F) (m ((c : Thread nD τ).loc main_arg0)) (m ((c : Thread nD τ).loc main_arg1))
          (m ((c : Thread nD τ).loc main_arg2)) := by
  dsimp only [V]
  simp only [hostOps0, hostOps0_1, hostOps0_2, List.flatten_cons, List.flatten_nil, List.append_nil, List.cons_append, List.nil_append]
  after_results_simp
  rfl

end Cert.KernelIdeal.Aggregate

end
-- ==== Proof.KernelResult.lean ====
/-
  The kernel's result as a function of its arguments.

  `KernelDense.run` names the output array as the dense stage of three arrays as the region finds them. No host operation
  writes the node features or the weights, so the region finds them as launched; and the aggregated features it finds are
  the reference's aggregation of the launch contents (`Aggregate.staged_agg`). Hence the output is

      dense (aggregation (x, edge_index, edge_weight)) x W

  of the four arguments, with the aggregation the very function the reference's result is stated over.
-/
import proofs.«129318_j85031762526673_1_alg».proof.Proof.KernelDense
import proofs.«129318_j85031762526673_1_alg».proof.Proof.Aggregate

noncomputable section

namespace Cert.KernelIdeal.KernelResult

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer's output as a function of the four arguments' launch contents. -/
def result (c : Dev nD) : Vec Ideal S100000x64 .f32 :=
  Cert.DenseSpec.dense
    (Cert.ReferenceIdeal.Read.val_main_v44 (F := Ideal) (m ((c : Thread nD τ).loc main_arg0)) (m ((c : Thread nD τ).loc main_arg1))
      (m ((c : Thread nD τ).loc main_arg2)))
    (m ((c : Thread nD τ).loc main_arg0)) (m ((c : Thread nD τ).loc main_arg3))

/-- The dense stage of the arrays the region finds is the dense stage of the arguments. -/
theorem target_eq (c : Dev nD) : Cert.KernelIdeal.KernelDense.target m c = result m c := by
  show Cert.DenseSpec.dense (V m c main_v44) (V m c main_arg0) (V m c main_arg3) = _
  rw [Cert.KernelIdeal.Aggregate.staged_agg, V_main_arg0, V_main_arg3]
  rfl

/-- Every weakly fair execution of the idealized kernel ends with its result array at `result` and its arguments
    unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (target_eq m c), (h c).2⟩)
    (Cert.KernelIdeal.KernelDense.run m ρ)

end Cert.KernelIdeal.KernelResult

end
-- ==== Proof.RefDense.lean ====
/-
  The reference's result is the dense stage of its own aggregation.

  After the sparse aggregation the reference mixes the aggregated and the input features over the whole 100000 × 64
  arrays, multiplies by the weights in one product, and rectifies. Read at entry (r, c), the product's contracted sum runs
  over the 64 columns of row r of the mix and the 64 rows of column c of the weights, so the result is
  `DenseSpec.dense` of the aggregated features, the input features and the weights. The aggregation itself is never
  opened: it enters only as the array the dense stage reads.
-/
import proofs.«129318_j85031762526673_1_alg».proof.Proof.Gen.ReferenceIdeal.Read
import proofs.«129318_j85031762526673_1_alg».proof.Proof.DenseSpec

noncomputable section

open scoped BigOperators

namespace Cert.ReferenceIdeal.RefDense

open Cert.ReferenceIdeal Cert.ReferenceIdeal.Gen Cert.ReferenceIdeal.Read Idealize.ShloMosaic Idealize.ShloMosaic.ValueIdx

/-- At output entry (r, c) and contracted coordinate k the product reads the mix at (r, k) … -/
theorem left_index (r : Fin 100000) (c k : Fin 64) : lidx_main_v50 (ix2 r c) k = ix2 r k :=
  funext fun a => by match a with | ⟨0, _⟩ => rfl | ⟨1, _⟩ => rfl
/-- … and the weights at (k, c). -/
theorem right_index (r : Fin 100000) (c k : Fin 64) : ridx_main_v50 (ix2 r c) k = ix2 k c :=
  funext fun a => by match a with | ⟨0, _⟩ => rfl | ⟨1, _⟩ => rfl

/-- The reference's result, as a function of its four arguments, is the dense stage on its aggregated features. -/
theorem result_eq (x0 : (⟨S100000x64, .f32⟩ : BufTy).Contents (Elt Ideal)) (x1 : (⟨S2x1200000, .i32⟩ : BufTy).Contents (Elt Ideal))
    (x2 : (⟨S1200000, .f32⟩ : BufTy).Contents (Elt Ideal)) (x3 : (⟨S64x64, .f32⟩ : BufTy).Contents (Elt Ideal)) :
    val_main_v51 (F := Ideal) x0 x1 x2 x3 = Cert.DenseSpec.dense (val_main_v44 (F := Ideal) x0 x1 x2) x0 x3 := by
  funext i
  obtain ⟨r, c, rfl⟩ : ∃ (r : Fin 100000) (c : Fin 64), i = ix2 r c := ⟨i 0, i 1, eq_ix2 i⟩
  rw [Cert.DenseSpec.dense_apply, val_main_v51_apply, val_main_v50_apply, val_main_call1_v0_apply, val_main_call1_cst_apply]
  unfold Cert.DenseSpec.entry
  show max _ _ = max _ _
  refine congrArg₂ max (Finset.sum_congr rfl fun k _ => ?_) rfl
  rw [left_index, right_index, val_main_v49_apply, val_main_v46_apply, val_main_v48_apply, val_main_v45_apply, val_main_v47_apply,
    val_main_cst_9_apply, val_main_cst_10_apply]
  rfl

end Cert.ReferenceIdeal.RefDense

end
-- ==== Proof.lean ====
/-
  A graph-convolution layer with an initial residual: equivalence of a tiled dense kernel and its whole-array reference.

  Both programs first aggregate neighbour features over a weighted edge list with self-loops, symmetrically normalised by
  the inverse square roots of the weighted degrees; call the result `agg` (100000 × 64). Both then form the layer's output

      relu ((c₀ · agg + c₁ · x) · W)

  with `x` the node features, `W` the 64 × 64 weights and c₀, c₁ two float constants. The reference does the second part
  on whole arrays. The kernel does it ten thousand rows at a time, in ten grid points, narrowing the mixed features and
  the weights to bf16 before a matrix product that accumulates in f32 from zero.

  Over the extended reals the two agree entry by entry. The aggregation is literally the same composed term in both
  programs (`Aggregate.staged_agg`), so it is carried as one unopened function. Narrowing is the identity. A product into a
  zero accumulator is the plain contracted sum, the same sum over the 64 inner coordinates that the reference's product
  takes (`BlockPayload.pay_apply`, `RefDense.result_eq`). And entry (r, c) of the output depends only on row r of `agg` and
  of `x`, so computing rows 10000·t … 10000·t + 9999 from the matching blocks gives exactly those rows of the whole-array
  result; the ten blocks tile the rows (`KernelDense.final`). No algebraic law beyond this re-indexing is used, so the
  inputs' finiteness is never needed for the values.

  The word-level kernel and its idealization run to completion with their arguments unchanged by the generated frame
  certificates; the reference's frame is its generated run with the result dropped. The idealization rewrote no
  operation, so there is nothing to preserve.
-/
import proofs.«129318_j85031762526673_1_alg».proof.Defs
import proofs.«129318_j85031762526673_1_alg».proof.Proof.Gen.Kernel
import proofs.«129318_j85031762526673_1_alg».proof.Proof.Gen.Kernel.Skeleton
import proofs.«129318_j85031762526673_1_alg».proof.Proof.Gen.Kernel.Launch
import proofs.«129318_j85031762526673_1_alg».proof.Proof.Gen.Kernel.Points
import proofs.«129318_j85031762526673_1_alg».proof.Proof.Gen.Kernel.Frame
import proofs.«129318_j85031762526673_1_alg».proof.Proof.Gen.KernelIdeal
import proofs.«129318_j85031762526673_1_alg».proof.Proof.Gen.KernelIdeal.Skeleton
import proofs.«129318_j85031762526673_1_alg».proof.Proof.Gen.KernelIdeal.Launch
import proofs.«129318_j85031762526673_1_alg».proof.Proof.Gen.KernelIdeal.Points
import proofs.«129318_j85031762526673_1_alg».proof.Proof.Gen.KernelIdeal.Frame
import proofs.«129318_j85031762526673_1_alg».proof.Proof.Gen.ReferenceIdeal
import proofs.«129318_j85031762526673_1_alg».proof.Proof.Gen.KernelIdeal.Value
import proofs.«129318_j85031762526673_1_alg».proof.Proof.Gen.ReferenceIdeal.Run
import proofs.«129318_j85031762526673_1_alg».proof.Proof.Gen.ReferenceIdeal.Read
import proofs.«129318_j85031762526673_1_alg».proof.Proof.Gen.Pre_finite_inputs
import proofs.«129318_j85031762526673_1_alg».proof.Proof.KernelResult
import proofs.«129318_j85031762526673_1_alg».proof.Proof.RefDense
import Idealize.ShloMosaic.Adequacy
import Idealize.ShloMosaic.Init

noncomputable section

namespace Cert.Proof

open Idealize.ShloMosaic Idealize.ShloMosaic.TcCoe Idealize.SL.Sem

/-- The word-level kernel terminates without fault and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, the idealized kernel and the idealized reference both end with the
    layer's output at `KernelResult.result` of the kernel's arguments: the kernel by its blockwise run, the reference by its
    run read as the dense stage of its own aggregation, the arguments' agreement rewritten. -/
theorem algebraic : Cert.algebraic_KernelIdeal_ReferenceIdeal := by
  intro m ρ m' ρ' _ hagree
  refine ⟨fun c => Cert.KernelIdeal.KernelResult.result m c, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefDense.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
